-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x1x84x84 : Shape := ⟨5, ![64, 16, 1, 84, 84]⟩
abbrev S1024x98 : Shape := ⟨2, ![1024, 98]⟩
abbrev S1024 : Shape := ⟨1, ![1024]⟩
abbrev S1x1152x1024 : Shape := ⟨3, ![1, 1152, 1024]⟩
abbrev S_ : Shape := ⟨0, ![]⟩

class Facts : Prop where
  bcast_S_S64x16x1x84x84 : S_.BroadcastsInDim S64x16x1x84x84 (![] : Fin 0 → Fin S64x16x1x84x84.rank)
  reducesTo_S64x16x1x84x84_S_d0_1_2_3_4 : S64x16x1x84x84.ReducesTo [0, 1, 2, 3, 4] S_
  h_S_ : 0 < S_.numel
  bcast_S_S1024x98 : S_.BroadcastsInDim S1024x98 (![] : Fin 0 → Fin S1024x98.rank)
  reducesTo_S1024x98_S_d0_1 : S1024x98.ReducesTo [0, 1] S_
  bcast_S_S1024 : S_.BroadcastsInDim S1024 (![] : Fin 0 → Fin S1024.rank)
  reducesTo_S1024_S_d0 : S1024.ReducesTo [0] S_
  bcast_S_S1x1152x1024 : S_.BroadcastsInDim S1x1152x1024 (![] : Fin 0 → Fin S1x1152x1024.rank)
  reducesTo_S1x1152x1024_S_d0_1_2 : S1x1152x1024.ReducesTo [0, 1, 2] S_

variable [Facts]

def fn_part1 {F : FTy → Type} [FloatOps F] (main_v13 : IVec S_ 1) (main_v16 : IVec S1x1152x1024 1) : IVec S_ 1 :=
  let main_c_5 : IVec S_ 1 := constantI S_ 1 1#1
  let main_v17 : IVec S_ 1 := (fun x v => Host.reduce IntOp.andi x v reducesTo_S1x1152x1024_S_d0_1_2 h_S_) main_v16 main_c_5
  let main_v18 : IVec S_ 1 := andi main_v13 main_v17
  main_v18

def fn {F : FTy → Type} [FloatOps F] (main_arg0 : FVec F S64x16x1x84x84 .f32) (main_arg1 : FVec F S1024x98 .f32) (main_arg2 : FVec F S1024 .f32) (main_arg3 : FVec F S1x1152x1024 .f32) : IVec S_ 1 :=
  let main_v0 : FVec F S64x16x1x84x84 .f32 := Host.absf main_arg0
  let main_cst : FVec F S_ .f32 := constant S_ .f32 0x7F800000#32
  let main_v1 : FVec F S64x16x1x84x84 .f32 := broadcastInDim S64x16x1x84x84 ![] bcast_S_S64x16x1x84x84 main_cst
  let main_v2 : IVec S64x16x1x84x84 1 := cmpf .olt main_v0 main_v1
  let main_c : IVec S_ 1 := constantI S_ 1 1#1
  let main_v3 : IVec S_ 1 := (fun x v => Host.reduce IntOp.andi x v reducesTo_S64x16x1x84x84_S_d0_1_2_3_4 h_S_) main_v2 main_c
  let main_v4 : FVec F S1024x98 .f32 := Host.absf main_arg1
  let main_cst_0 : FVec F S_ .f32 := constant S_ .f32 0x7F800000#32
  let main_v5 : FVec F S1024x98 .f32 := broadcastInDim S1024x98 ![] bcast_S_S1024x98 main_cst_0
  let main_v6 : IVec S1024x98 1 := cmpf .olt main_v4 main_v5
  let main_c_1 : IVec S_ 1 := constantI S_ 1 1#1
  let main_v7 : IVec S_ 1 := (fun x v => Host.reduce IntOp.andi x v reducesTo_S1024x98_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1152x1024 .f32 := Host.absf main_arg3
  let main_cst_4 : FVec F S_ .f32 := constant S_ .f32 0x7F800000#32
  let main_v15 : FVec F S1x1152x1024 .f32 := broadcastInDim S1x1152x1024 ![] bcast_S_S1x1152x1024 main_cst_4
  let main_v16 : IVec S1x1152x1024 1 := cmpf .olt main_v14 main_v15
  fn_part1 (F := F) main_v13 main_v16
-- ==== Kernel.lean ====
abbrev S64x16x1x84x84 : Shape := ⟨5, ![64, 16, 1, 84, 84]⟩
abbrev S1024x98 : Shape := ⟨2, ![1024, 98]⟩
abbrev S1024 : Shape := ⟨1, ![1024]⟩
abbrev S1x1152x1024 : Shape := ⟨3, ![1, 1152, 1024]⟩
abbrev S1024x1x12x7x12x7 : Shape := ⟨6, ![1024, 1, 12, 7, 12, 7]⟩
abbrev S1024x12x12x1x7x7 : Shape := ⟨6, ![1024, 12, 12, 1, 7, 7]⟩
abbrev S64x16x144x49 : Shape := ⟨4, ![64, 16, 144, 49]⟩
abbrev S64x8x2x144x49 : Shape := ⟨5, ![64, 8, 2, 144, 49]⟩
abbrev S64x8x144x2x49 : Shape := ⟨5, ![64, 8, 144, 2, 49]⟩
abbrev S64x1152x98 : Shape := ⟨3, ![64, 1152, 98]⟩
abbrev S64x1152x1024 : Shape := ⟨3, ![64, 1152, 1024]⟩
abbrev S8x128x98 : Shape := ⟨3, ![8, 128, 98]⟩
abbrev S1x128x1024 : Shape := ⟨3, ![1, 128, 1024]⟩
abbrev S8x128x1024 : Shape := ⟨3, ![8, 128, 1024]⟩
abbrev S1024x1024 : Shape := ⟨2, ![1024, 1024]⟩
abbrev S1x1x1024 : Shape := ⟨3, ![1, 1, 1024]⟩

abbrev nBuf : Space → Nat
  | .hbm => 11
  | .vmem => 8
  | .smem => 0
  | _ => 0

abbrev bufTy : (tb : Table) → Fin (tcTables nBuf tb) → BufTy
  | .hbm, ⟨0, _⟩ => ⟨S64x16x1x84x84, .f32⟩
  | .hbm, ⟨1, _⟩ => ⟨S1024x98, .f32⟩
  | .hbm, ⟨2, _⟩ => ⟨S1024, .f32⟩
  | .hbm, ⟨3, _⟩ => ⟨S1x1152x1024, .f32⟩
  | .hbm, ⟨4, _⟩ => ⟨S1024x1x12x7x12x7, .f32⟩
  | .hbm, ⟨5, _⟩ => ⟨S1024x12x12x1x7x7, .f32⟩
  | .hbm, ⟨6, _⟩ => ⟨S64x16x144x49, .f32⟩
  | .hbm, ⟨7, _⟩ => ⟨S64x8x2x144x49, .f32⟩
  | .hbm, ⟨8, _⟩ => ⟨S64x8x144x2x49, .f32⟩
  | .hbm, ⟨9, _⟩ => ⟨S64x1152x98, .f32⟩
  | .hbm, ⟨10, _⟩ => ⟨S64x1152x1024, .f32⟩
  | .local _ .vmem, ⟨0, _⟩ => ⟨S8x128x98, .f32⟩
  | .local _ .vmem, ⟨1, _⟩ => ⟨S8x128x98, .f32⟩
  | .local _ .vmem, ⟨2, _⟩ => ⟨S1024x98, .f32⟩
  | .local _ .vmem, ⟨3, _⟩ => ⟨S1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .f32⟩
  | .local _ .vmem, ⟨7, _⟩ => ⟨S8x128x1024, .f32⟩
  | _, _ => ⟨S64x16x1x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x98 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x98 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64x16x1x84x84_S1024x1x12x7x12x7 : S64x16x1x84x84.ShapeCasts S1024x1x12x7x12x7
  transposes_S1024x1x12x7x12x7_S1024x12x12x1x7x7_0_2_4_1_3_5 : S1024x1x12x7x12x7.Transposes [0, 2, 4, 1, 3, 5] S1024x12x12x1x7x7
  shapeCasts_S1024x12x12x1x7x7_S64x16x144x49 : S1024x12x12x1x7x7.ShapeCasts S64x16x144x49
  shapeCasts_S64x16x144x49_S64x8x2x144x49 : S64x16x144x49.ShapeCasts S64x8x2x144x49
  transposes_S64x8x2x144x49_S64x8x144x2x49_0_1_3_2_4 : S64x8x2x144x49.Transposes [0, 1, 3, 2, 4] S64x8x144x2x49
  shapeCasts_S64x8x144x2x49_S64x1152x98 : S64x8x144x2x49.ShapeCasts S64x1152x98
  inb_S8x128x98_S8x128x98_0_0_0 : ∀ a, (![0, 0, 0] : Fin 3 → Nat) a + S8x128x98.size a ≤ S8x128x98.size a
  h_S8x128x98 : 0 < S8x128x98.numel
  shapeCasts_S8x128x98_S8x128x98 : S8x128x98.ShapeCasts S8x128x98
  bitsLt_bf16_f32 : FTy.bits .bf16 < FTy.bits .f32
  shapeCasts_S8x128x98_S1024x98 : S8x128x98.ShapeCasts S1024x98
  inb_S1024x98_S1024x98_0_0 : ∀ a, (![0, 0] : Fin 2 → Nat) a + S1024x98.size a ≤ S1024x98.size a
  h_S1024x98 : 0 < S1024x98.numel
  shapeCasts_S1024x1024_S8x128x1024 : S1024x1024.ShapeCasts S8x128x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S8x128x1024 : S1x1x1024.Broadcasts S8x128x1024
  inb_S1x128x1024_S1x128x1024_0_0_0 : ∀ a, (![0, 0, 0] : Fin 3 → Nat) a + S1x128x1024.size a ≤ S1x128x1024.size a
  h_S1x128x1024 : 0 < S1x128x1024.numel
  broadcasts_S1x128x1024_S8x128x1024 : S1x128x1024.Broadcasts S8x128x1024
  inb_S8x128x1024_S8x128x1024_0_0_0 : ∀ a, (![0, 0, 0] : Fin 3 → Nat) a + S8x128x1024.size a ≤ S8x128x1024.size a
  h_S8x128x1024 : 0 < S8x128x1024.numel
  dot_S1024x98_S1024x98_S1024x1024_1_1_0_0_n_n_wf : DotDims.WF S1024x98 S1024x98 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x98.size a ≤ S64x1152x98.size a
  hwx0_0 : ∀ i : grid0.Coords, EltTy.bits .f32 = 32 ∨ (Rect.block (s := S64x1152x98) S8x128x98.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x98.size a ≤ S1024x98.size a
  hwx0_1 : ∀ i : grid0.Coords, EltTy.bits .f32 = 32 ∨ (Rect.block (s := S1024x98) S1024x98.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S1x1152x1024.size a
  hwx0_3 : ∀ i : grid0.Coords, EltTy.bits .f32 = 32 ∨ (Rect.block (s := S1x1152x1024) S1x128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x1024.size a ≤ S64x1152x1024.size a
  hwx0_4 : ∀ i : grid0.Coords, EltTy.bits .f32 = 32 ∨ (Rect.block (s := S64x1152x1024) S8x128x1024.size (cc0_transform_4 i) (hinb0_4 i)).WholeWords (EltTy.packing .f32)

variable [Facts₀]

def dot_S1024x98_S1024x98_S1024x1024_1_1_0_0_n_n : DotDims S1024x98 S1024x98 S1024x1024 where
  lhsContracting := [1]
  rhsContracting := [1]
  lhsNonContracting := [0]
  rhsNonContracting := [0]
  lhsBatch := []
  rhsBatch := []
  wf := dot_S1024x98_S1024x98_S1024x1024_1_1_0_0_n_n_wf

abbrev win0_0 : Pipeline.Window sig grid0 :=
  Pipeline.Window.ofSpec (Memref.whole main_v5) S8x128x98.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x98.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x16x1x84x84 : Shape := ⟨5, ![64, 16, 1, 84, 84]⟩
abbrev S1024x98 : Shape := ⟨2, ![1024, 98]⟩
abbrev S1024 : Shape := ⟨1, ![1024]⟩
abbrev S1x1152x1024 : Shape := ⟨3, ![1, 1152, 1024]⟩
abbrev S1024x1x12x7x12x7 : Shape := ⟨6, ![1024, 1, 12, 7, 12, 7]⟩
abbrev S1024x12x12x1x7x7 : Shape := ⟨6, ![1024, 12, 12, 1, 7, 7]⟩
abbrev S64x16x144x49 : Shape := ⟨4, ![64, 16, 144, 49]⟩
abbrev S64x8x2x144x49 : Shape := ⟨5, ![64, 8, 2, 144, 49]⟩
abbrev S64x8x144x2x49 : Shape := ⟨5, ![64, 8, 144, 2, 49]⟩
abbrev S64x1152x98 : Shape := ⟨3, ![64, 1152, 98]⟩
abbrev S64x1152x1024 : Shape := ⟨3, ![64, 1152, 1024]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S64x16x1x84x84, .f32⟩
  | .hbm, ⟨1, _⟩ => ⟨S1024x98, .f32⟩
  | .hbm, ⟨2, _⟩ => ⟨S1024, .f32⟩
  | .hbm, ⟨3, _⟩ => ⟨S1x1152x1024, .f32⟩
  | .hbm, ⟨4, _⟩ => ⟨S1024x1x12x7x12x7, .f32⟩
  | .hbm, ⟨5, _⟩ => ⟨S1024x12x12x1x7x7, .f32⟩
  | .hbm, ⟨6, _⟩ => ⟨S64x16x144x49, .f32⟩
  | .hbm, ⟨7, _⟩ => ⟨S64x8x2x144x49, .f32⟩
  | .hbm, ⟨8, _⟩ => ⟨S64x8x144x2x49, .f32⟩
  | .hbm, ⟨9, _⟩ => ⟨S64x1152x98, .f32⟩
  | .hbm, ⟨10, _⟩ => ⟨S64x1152x1024, .f32⟩
  | .hbm, ⟨11, _⟩ => ⟨S1x1x1024, .f32⟩
  | .hbm, ⟨12, _⟩ => ⟨S64x1152x1024, .f32⟩
  | .hbm, ⟨13, _⟩ => ⟨S64x1152x1024, .f32⟩
  | .hbm, ⟨14, _⟩ => ⟨S64x1152x1024, .f32⟩
  | .hbm, ⟨15, _⟩ => ⟨S64x1152x1024, .f32⟩
  | _, _ => ⟨S64x16x1x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S64x16x1x84x84_S1024x1x12x7x12x7 : S64x16x1x84x84.ShapeCasts S1024x1x12x7x12x7
  transposes_S1024x1x12x7x12x7_S1024x12x12x1x7x7_0_2_4_1_3_5 : S1024x1x12x7x12x7.Transposes [0, 2, 4, 1, 3, 5] S1024x12x12x1x7x7
  shapeCasts_S1024x12x12x1x7x7_S64x16x144x49 : S1024x12x12x1x7x7.ShapeCasts S64x16x144x49
  shapeCasts_S64x16x144x49_S64x8x2x144x49 : S64x16x144x49.ShapeCasts S64x8x2x144x49
  transposes_S64x8x2x144x49_S64x8x144x2x49_0_1_3_2_4 : S64x8x2x144x49.Transposes [0, 1, 3, 2, 4] S64x8x144x2x49
  shapeCasts_S64x8x144x2x49_S64x1152x98 : S64x8x144x2x49.ShapeCasts S64x1152x98
  bcast_S1024_S1x1x1024_2 : S1024.BroadcastsInDim S1x1x1024 (![2] : Fin 1 → Fin S1x1x1024.rank)
  bcast_S1x1x1024_S64x1152x1024_0_1_2 : S1x1x1024.BroadcastsInDim S64x1152x1024 (![0, 1, 2] : Fin 3 → Fin S64x1152x1024.rank)
  bcast_S1x1152x1024_S64x1152x1024_0_1_2 : S1x1152x1024.BroadcastsInDim S64x1152x1024 (![0, 1, 2] : Fin 3 → Fin S64x1152x1024.rank)
  dot_S64x1152x98_S1024x98_S64x1152x1024_2_1_01_0_n_n_wf : DotDims.WF S64x1152x98 S1024x98 S64x1152x1024 [2] [1] [0, 1] [0] [] []

variable [Facts₀]

def dot_S64x1152x98_S1024x98_S64x1152x1024_2_1_01_0_n_n : DotDims S64x1152x98 S1024x98 S64x1152x1024 where
  lhsContracting := [2]
  rhsContracting := [1]
  lhsNonContracting := [0, 1]
  rhsNonContracting := [0]
  lhsBatch := []
  rhsBatch := []
  wf := dot_S64x1152x98_S1024x98_S64x1152x1024_2_1_01_0_n_n_wf

class Facts : Prop extends Facts₀ where

variable [Facts]
-- ==== Proof.Tokens.lean ====
/-
  The token embedding both programs compute, as one function of four arrays, index by index.

  A video is cut into tubelets: `tub[b, n, k]` is the k-th of the 98 pixels (two frames of a 7 × 7 patch) of
  tubelet `n` of clip `b`. Token `(b, n)` is the linear projection of that tubelet by the rows of `w`, plus the
  bias, plus the position embedding of slot `n` (the same for every clip):

      tokens[b, n, e] = (∑ k < 98, tub[b, n, k] · w[e, k]) + bias[e] + pos[0, n, e].

  The sum is over the extended reals; the two additions are associated to the left, as both programs add them.
-/
import Idealize.ShloMosaic.PureOps.Ideal
import Idealize.ShloMosaic.Lib.ValueIdx

noncomputable section

open scoped BigOperators

namespace Cert.Tokens

open Idealize.ShloMosaic Idealize.ShloMosaic.ValueIdx

/-- `tokens tub w bias pos` at `(b, n, e)`: the row `tub[b, n, ·]` against the row `w[e, ·]`, then the bias of
    channel `e`, then the position embedding of slot `n` at channel `e`. -/
def tokens (tub : FVec Ideal ⟨3, ![64, 1152, 98]⟩ .f32) (w : FVec Ideal ⟨2, ![1024, 98]⟩ .f32)
    (bias : FVec Ideal ⟨1, ![1024]⟩ .f32) (pos : FVec Ideal ⟨3, ![1, 1152, 1024]⟩ .f32) :
    FVec Ideal ⟨3, ![64, 1152, 1024]⟩ .f32 :=
  fun i => (∑ k : Fin 98, tub (ix3 (i 0) (i 1) k) * w (ix2 (i 2) k)) + bias (ix1 (i 2))
    + pos (ix3 (0 : Fin 1) (i 1) (i 2))

end Cert.Tokens

end
-- ==== Proof.Tubelets.lean ====
/-
  The video rearranged into tubelets: pure data movement, the same in both programs.

  A video [64, 16, 1, 84, 84] (clip, frame, colour, row, column) is cut into 7 × 7 patches on a 12 × 12 grid, frame by
  frame, and two consecutive frames of one patch make a tubelet: the result [64, 1152, 98] has one row of
  2 · 49 = 98 pixels for each of the 8 · 144 = 1152 (frame pair, patch) slots of each clip. As array operations: split
  rows and columns into (12, 7) each, bring the two grid axes in front of the patch axes, merge (frame pairs split
  from frames) and swap the frame-in-pair axis behind the patch axis, merge again. No arithmetic is done, so the
  operation is one term that both programs apply to the video; nothing below ever opens it.
-/
import Idealize.ShloMosaic.PureOps.Ideal

noncomputable section

namespace Cert.Tokens

open Idealize.ShloMosaic

/-- The tubelets of a video, as the chain of reshapes and transposes both programs print. -/
def tubelets (video : FVec Ideal ⟨5, ![64, 16, 1, 84, 84]⟩ .f32) : FVec Ideal ⟨3, ![64, 1152, 98]⟩ .f32 :=
  shapeCast ⟨3, ![64, 1152, 98]⟩
    (transpose ⟨5, ![64, 8, 144, 2, 49]⟩ [0, 1, 3, 2, 4]
      (shapeCast ⟨5, ![64, 8, 2, 144, 49]⟩
        (shapeCast ⟨4, ![64, 16, 144, 49]⟩
          (transpose ⟨6, ![1024, 12, 12, 1, 7, 7]⟩ [0, 2, 4, 1, 3, 5]
            (shapeCast ⟨6, ![1024, 1, 12, 7, 12, 7]⟩ video (by decide))
            (by decide))
          (by decide))
        (by decide))
      (by decide))
    (by decide)

end Cert.Tokens

end
-- ==== Proof.Payload.lean ====
/-
  What one call of the kernel body stores, read at an index.

  The body loads a block `x` of 8 × 128 tubelets (98 pixels each), the whole weight matrix `w` [1024, 98], the
  bias [1024] and a block `p` [1, 128, 1024] of position embeddings. It lays the 8 × 128 tubelets out as 1024 rows,
  multiplies them against the rows of `w` (contracting the 98 pixels), lays the 1024 × 1024 products out again as
  8 × 128 × 1024, and adds the bias along the last axis and the position block along the last two. The narrowing of
  both operands to bf16 before the product changes no value over the extended reals. So the stored value at
  `(a, q, e)` is

      (∑ k < 98, x[a, q, k] · w[e, k]) + bias[e] + p[0, q, e].

  Row `r` of the flattened tubelets is tubelet `(r / 128, r % 128)`; `flatRow a q = a · 128 + q` names it.
-/
import proofs.«132146_j87771951661498_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The matrix product: rows against rows -/

/-- The left operand is read at the output's row … -/
theorem lhs_row (i : S1024x1024.Idx) (q : dot_S1024x98_S1024x98_S1024x1024_1_1_0_0_n_n.contr.Idx) :
    (dot_S1024x98_S1024x98_S1024x1024_1_1_0_0_n_n.lhsIdx i q 0).val = (i 0).val := by
  unfold DotDims.lhsIdx
  rw [dif_neg (show ¬(0 : Fin S1024x98.rank) ∈ dot_S1024x98_S1024x98_S1024x1024_1_1_0_0_n_n.lhsBatch by decide),
    dif_pos (show (0 : Fin S1024x98.rank) ∈ dot_S1024x98_S1024x98_S1024x1024_1_1_0_0_n_n.lhsNonContracting by decide)]
  rfl
/-- … and at the contracted pixel; -/
theorem lhs_col (i : S1024x1024.Idx) (q : dot_S1024x98_S1024x98_S1024x1024_1_1_0_0_n_n.contr.Idx) :
    (dot_S1024x98_S1024x98_S1024x1024_1_1_0_0_n_n.lhsIdx i q 1).val = (q ⟨0, by decide⟩).val :=
  dot_S1024x98_S1024x98_S1024x1024_1_1_0_0_n_n.lhsIdx_val_of_single rfl i q
/-- the right operand at the output's column, as a row of its own, … -/
theorem rhs_row (i : S1024x1024.Idx) (q : dot_S1024x98_S1024x98_S1024x1024_1_1_0_0_n_n.contr.Idx) :
    (dot_S1024x98_S1024x98_S1024x1024_1_1_0_0_n_n.rhsIdx i q 0).val = (i 1).val := by
  unfold DotDims.rhsIdx
  rw [dif_neg (show ¬(0 : Fin S1024x98.rank) ∈ dot_S1024x98_S1024x98_S1024x1024_1_1_0_0_n_n.rhsBatch by decide),
    dif_pos (show (0 : Fin S1024x98.rank) ∈ dot_S1024x98_S1024x98_S1024x1024_1_1_0_0_n_n.rhsNonContracting by decide)]
  rfl
/-- … and at the contracted pixel. -/
theorem rhs_col (i : S1024x1024.Idx) (q : dot_S1024x98_S1024x98_S1024x1024_1_1_0_0_n_n.contr.Idx) :
    (dot_S1024x98_S1024x98_S1024x1024_1_1_0_0_n_n.rhsIdx i q 1).val = (q ⟨0, by decide⟩).val :=
  dot_S1024x98_S1024x98_S1024x1024_1_1_0_0_n_n.rhsIdx_val_of_single rfl i q

/-- The product of a [1024, 98] matrix with the transpose of another, accumulated into zero, at `(r, c)`: row `r`
    of the first against row `c` of the second. -/
theorem rows_dot_rows (a b : FVec Ideal S1024x98 .bf16) (r c : Fin 1024) :
    matmul (F := Ideal) dot_S1024x98_S1024x98_S1024x1024_1_1_0_0_n_n none a b (constant S1024x1024 .f32 0x00000000#32) (ix2 r c)
      = ∑ k : Fin 98, a (ix2 r k) * b (ix2 c k) := by
  simp only [matmul]
  rw [Ideal.matmul_constant_zero_apply, ← Equiv.sum_comp (contrEquiv1 dot_S1024x98_S1024x98_S1024x1024_1_1_0_0_n_n 98 rfl rfl).symm]
  refine Finset.sum_congr rfl fun k _ => ?_
  have hk := contrEquiv1_symm_val dot_S1024x98_S1024x98_S1024x1024_1_1_0_0_n_n 98 rfl rfl k
  have el : dot_S1024x98_S1024x98_S1024x1024_1_1_0_0_n_n.lhsIdx (ix2 r c) ((contrEquiv1 dot_S1024x98_S1024x98_S1024x1024_1_1_0_0_n_n 98 rfl rfl).symm k) = ix2 r k := funext fun d => Fin.ext (by
    match d with
    | ⟨0, _⟩ => exact lhs_row _ _
    | ⟨1, _⟩ => exact (lhs_col _ _).trans hk)
  have er : dot_S1024x98_S1024x98_S1024x1024_1_1_0_0_n_n.rhsIdx (ix2 r c) ((contrEquiv1 dot_S1024x98_S1024x98_S1024x1024_1_1_0_0_n_n 98 rfl rfl).symm k) = ix2 c k := funext fun d => Fin.ext (by
    match d with
    | ⟨0, _⟩ => exact rhs_row _ _
    | ⟨1, _⟩ => exact (rhs_col _ _).trans hk)
  rw [el, er]

/-! ## The layout operations around it -/

/-- Tubelet `(a, q)` of a block is row `a · 128 + q` of the flattened block. -/
def flatRow (a : Fin 8) (q : Fin 128) : Fin 1024 := ⟨a.val * 128 + q.val, by have := a.isLt; have := q.isLt; omega⟩

/-- The flattened block at row `flatRow a q` is the block at `(a, q)`. -/
theorem flatten_apply {α : Type} (v : S8x128x98.Idx → α) (h : S8x128x98.ShapeCasts S1024x98) (a : Fin 8) (q : Fin 128) (k : Fin 98) :
    shapeCast S1024x98 v h (ix2 (flatRow a q) k) = v (ix3 a q k) :=
  shapeCast_apply v h _ _ (by rw [Shape.rowMajor_val_two, Shape.rowMajor_val_three]; rfl)

/-- The 1024 × 1024 products laid out as 8 × 128 × 1024: entry `(a, q, e)` is row `flatRow a q`, column `e`. -/
theorem unflatten_apply {α : Type} (v : S1024x1024.Idx → α) (h : S1024x1024.ShapeCasts S8x128x1024) (y : S8x128x1024.Idx) :
    shapeCast S8x128x1024 v h y = v (ix2 (flatRow (y 0) (y 1)) (y 2)) :=
  shapeCast_apply v h _ _ (by rw [Shape.rowMajor_val_two, Shape.rowMajor_val_three]; rfl)

/-- The bias, given a unit axis twice and repeated over the block: entry `(a, q, e)` is `bias[e]`. -/
theorem bias_apply {α : Type} (v : S1024.Idx → α) (h : S1024.ShapeCasts S1x1x1024) (h' : S1x1x1024.Broadcasts S8x128x1024)
    (y : S8x128x1024.Idx) : broadcastTo S8x128x1024 (shapeCast S1x1x1024 v h) h' y = v (ix1 (y 2)) := by
  rw [broadcastTo_apply _ h' y (ix3 (0 : Fin 1) (0 : Fin 1) (y 2)) (fun d => by
    match d with
    | ⟨0, _⟩ => rfl
    | ⟨1, _⟩ => rfl
    | ⟨2, _⟩ => rfl)]
  exact shapeCast_apply v h _ _ (by rw [Shape.rowMajor_val_one, Shape.rowMajor_val_three]; simp)

/-- The position block repeated over the 8 clips of the block: entry `(a, q, e)` is `p[0, q, e]`. -/
theorem pos_apply {α : Type} (v : S1x128x1024.Idx → α) (h : S1x128x1024.Broadcasts S8x128x1024) (y : S8x128x1024.Idx) :
    broadcastTo S8x128x1024 v h y = v (ix3 (0 : Fin 1) (y 1) (y 2)) :=
  broadcastTo_apply v h y _ (fun d => by
    match d with
    | ⟨0, _⟩ => rfl
    | ⟨1, _⟩ => rfl
    | ⟨2, _⟩ => rfl)

/-! ## The stored value -/

/-- What the body stores, at `(a, q, e)`: tubelet `(a, q)` of the block against row `e` of the weights, plus
    the bias at `e`, plus the position block at `(0, q, e)`. -/
theorem pay_at (x : Vec Ideal S8x128x98 .f32) (w : Vec Ideal S1024x98 .f32) (bias : Vec Ideal S1024 .f32)
    (p : Vec Ideal S1x128x1024 .f32) (y : S8x128x1024.Idx) :
    k0_pay1 (F := Ideal) x w bias p y
      = (∑ k : Fin 98, x (ix3 (y 0) (y 1) k) * w (ix2 (y 2) k)) + bias (ix1 (y 2)) + p (ix3 (0 : Fin 1) (y 1) (y 2)) := by
  unfold k0_pay1
  rw [addf_apply, addf_apply, unflatten_apply, bias_apply, pos_apply]
  congr 2
  refine (rows_dot_rows _ _ (flatRow (y 0) (y 1)) (y 2)).trans ?_
  refine Finset.sum_congr rfl fun k _ => ?_
  refine congrArg₂ (· * ·) ((flatten_apply _ _ (y 0) (y 1) k).trans ?_) rfl
  rw [truncf_apply, shapeCast_self]

end Cert.KernelIdeal.Body

end
-- ==== Proof.Blocks.lean ====
/-
  From the blocks the grid points write back to the whole result array.

  The grid has 8 × 9 points. Point `(g, h)` is called with clips `8g … 8g + 7` and slots `128h … 128h + 127` of the
  tubelet array, the whole weight matrix, the whole bias, and slots `128h … 128h + 127` of the position embedding; it
  writes back block `(g, h)` of the result, clips `8g …`, slots `128h …`, every channel. By the payload's value
  (`Body.pay_at`) what it writes at `(a, q, e)` of its block is `tokens` at `(8g + a, 128h + q, e)` of the arrays as the
  call finds them: the block's coordinates and the arrays' differ by the same offsets on both sides. The 72 blocks
  tile the result, so the result array ends holding `tokens` everywhere.
-/
import proofs.«132146_j87771951661498_1_alg».proof.Proof.Gen.KernelIdeal.Value
import proofs.«132146_j87771951661498_1_alg».proof.Proof.Payload
import proofs.«132146_j87771951661498_1_alg».proof.Proof.Tokens
import proofs.«132146_j87771951661498_1_alg».proof.Proof.Tubelets
import Idealize.ShloMosaic.Lib.StableHlo.Run

set_option maxRecDepth 16384

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Tokens

variable (m : (ℓ : Loc nD τ sig) → Buf (Elt Ideal) ℓ) (ρ : Dev nD → PrngReg)

theorem off3 : (![0, 0, 0] : Fin 3 → Nat) = fun _ => 0 := funext fun a => by fin_cases a <;> rfl
theorem off2 : (![0, 0] : Fin 2 → Nat) = fun _ => 0 := funext fun a => by fin_cases a <;> rfl
theorem off1 : (![0] : Fin 1 → Nat) = fun _ => 0 := funext fun a => by fin_cases a <;> rfl

/-- Where each window's block sits at a grid point, against the result's block: the tubelets move with the result on
    clips and slots, the position embedding on slots only, the weights and the bias not at all; the result's block
    indices stay inside 8 × 9 × 1. Decided over the 72 points. -/
theorem grid_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 2) = 0
    ∧ win0_1.index t (1 : Fin 2) = 0
    ∧ win0_2.index t (0 : Fin 1) = 0
    ∧ win0_3.index t (0 : Fin 3) = 0
    ∧ win0_3.index t (1 : Fin 3) = win0_4.index t (1 : Fin 3)
    ∧ win0_3.index t (2 : Fin 3) = 0
    ∧ win0_4.index t (2 : Fin 3) = 0
    ∧ win0_4.index t (0 : Fin 3) ≤ 7
    ∧ win0_4.index t (1 : Fin 3) ≤ 8 :=
  (by decide +kernel : ∀ t : Fin grid0.N, _)

/-- Every block of the 8 × 9 tiling is some point's. -/
theorem grid_onto : ∀ (g : Fin 8) (h : Fin 9), ∃ t : Fin cfg0.N, win0_4.index t = ![g.val, h.val, 0] :=
  (by decide +kernel : ∀ (g : Fin 8) (h : Fin 9), ∃ t : Fin grid0.N, win0_4.index t = ![g.val, h.val, 0])

/-- What point `t` writes back is block `t` of `tokens` of the arrays as the call finds them. -/
theorem flushed_eq (c : Dev nD) (t : Fin cfg0.N) :
    (dats m 0 c).flushed 4 t = ((cfg0.win 4).blk t).view.read (Elt Ideal)
      (tokens (V m c main_v5) (V m c main_arg1) (V m c main_arg2) (V m c main_arg3)) := by
  rw [flushed4]
  unfold out0_4
  rw [View.canon_unit_zero off3]
  simp only [View.ld_unit_zero (S := S8x128x98) off3, View.ld_unit_zero (S := S1024x98) off2,
    View.ld_unit_zero (S := S1024) off1, View.ld_unit_zero (S := S1x128x1024) off3]
  obtain ⟨e00, e01, e02, e10, e11, e20, e30, e31, e32, e42, -, -⟩ := grid_facts t
  funext j
  show k0_pay1 (F := Ideal) (iblk m c 0 t) (iblk m c 1 t) (iblk m c 2 t) (iblk m c 3 t) j
    = tokens (V m c main_v5) (V m c main_arg1) (V m c main_arg2) (V m c main_arg3) (((cfg0.win 4).blk t).view.emb j)
  refine (Body.pay_at (iblk m c 0 t) (iblk m c 1 t) (iblk m c 2 t) (iblk m c 3 t) j).trans ?_
  unfold tokens
  refine congrArg₂ (· + ·) (congrArg₂ (· + ·) (Finset.sum_congr rfl fun k _ => congrArg₂ (· * ·) ?_ ?_) ?_) ?_
  · -- the tubelet block sits at the result block's clips and slots, and holds every pixel
    show V m c main_v5 (((cfg0.win 0).blk t).view.emb (ix3 (j 0) (j 1) k)) = _
    refine congrArg (V m c main_v5) (funext fun a => Fin.ext ?_)
    match a with
    | ⟨0, _⟩ => show win0_0.index t (0 : Fin 3) * 8 + 1 * (j 0).val = win0_4.index t (0 : Fin 3) * 8 + 1 * (j 0).val; omega
    | ⟨1, _⟩ => show win0_0.index t (1 : Fin 3) * 128 + 1 * (j 1).val = win0_4.index t (1 : Fin 3) * 128 + 1 * (j 1).val; omega
    | ⟨2, _⟩ => show win0_0.index t (2 : Fin 3) * 98 + 1 * k.val = k.val; omega
  · -- the weights are staged whole; the result's block holds every channel
    show V m c main_arg1 (((cfg0.win 1).blk t).view.emb (ix2 (j 2) k)) = _
    refine congrArg (V m c main_arg1) (funext fun a => Fin.ext ?_)
    match a with
    | ⟨0, _⟩ => show win0_1.index t (0 : Fin 2) * 1024 + 1 * (j 2).val = win0_4.index t (2 : Fin 3) * 1024 + 1 * (j 2).val; omega
    | ⟨1, _⟩ => show win0_1.index t (1 : Fin 2) * 98 + 1 * k.val = k.val; omega
  · -- the bias is staged whole
    show V m c main_arg2 (((cfg0.win 2).blk t).view.emb (ix1 (j 2))) = _
    refine congrArg (V m c main_arg2) (funext fun a => Fin.ext ?_)
    match a with
    | ⟨0, _⟩ => show win0_2.index t (0 : Fin 1) * 1024 + 1 * (j 2).val = win0_4.index t (2 : Fin 3) * 1024 + 1 * (j 2).val; omega
  · -- the position block sits at the result block's slots
    show V m c main_arg3 (((cfg0.win 3).blk t).view.emb (ix3 (0 : Fin 1) (j 1) (j 2))) = _
    refine congrArg (V m c main_arg3) (funext fun a => Fin.ext ?_)
    match a with
    | ⟨0, _⟩ => show win0_3.index t (0 : Fin 3) * 1 + 1 * 0 = 0; omega
    | ⟨1, _⟩ => show win0_3.index t (1 : Fin 3) * 128 + 1 * (j 1).val = win0_4.index t (1 : Fin 3) * 128 + 1 * (j 1).val; omega
    | ⟨2, _⟩ => show win0_3.index t (2 : Fin 3) * 1024 + 1 * (j 2).val = win0_4.index t (2 : Fin 3) * 1024 + 1 * (j 2).val; omega

/-- An index of the result is in point `t`'s block iff each coordinate is in the block's range on its axis. -/
theorem mem_blk (t : Fin cfg0.N) (i : S64x1152x1024.Idx) :
    i ∈ ((cfg0.win 4).blk t).view.set ↔ ∀ a : Fin 3, win0_4.index t a * S8x128x1024.size a ≤ (i a).val
      ∧ (i a).val < win0_4.index t a * S8x128x1024.size a + S8x128x1024.size a := by
  show i ∈ ((View.whole main_v6).slice (win0_4.rect t)).set ↔ _
  rw [View.set_slice_whole, Rect.mem_set_unit]
  exact Iff.rfl

/-- The blocks tile the result: entry `(b, n, e)` lies in the block of the point at `(b / 8, n / 128)`. -/
theorem covered (i : S64x1152x1024.Idx) :
    ∃ t : Fin cfg0.N, (cfg0.win 4).flush t = true ∧ i ∈ ((cfg0.win 4).blk t).view.set := by
  have hi0 : (i 0).val < 64 := (i 0).isLt
  have hi1 : (i 1).val < 1152 := (i 1).isLt
  have hi2 : (i 2).val < 1024 := (i 2).isLt
  obtain ⟨t, ht⟩ := grid_onto ⟨(i 0).val / 8, by omega⟩ ⟨(i 1).val / 128, by omega⟩
  have q0 : win0_4.index t (0 : Fin 3) = (i 0).val / 8 := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- The result array after the run is `tokens` of the arrays as the call finds them. -/
theorem final (c : Dev nD) :
    (dats m 0 c).arrAt 4 cfg0.N = tokens (V m c main_v5) (V m c main_arg1) (V m c main_arg2) (V m c main_arg3) :=
  (dats m 0 c).arrAt_eq_of_cover 4 _ (fun t _ => flushed_eq m c t) covered

/-- The tubelet array the call finds is the video, as launched, rearranged by the host operations before the call. -/
theorem V_tubelets (c : Dev nD) : V m c main_v5 = tubelets (m ((c : Thread nD τ).loc main_arg0)) := by
  dsimp only [V, hostOps0]
  after_results
  rfl

/-- The run, read: the result array ends at `tokens` of the video's tubelets, the weights, the bias and the position
    embedding as launched, and the four arguments end unchanged. -/
theorem run : θ_run defs (onTc (τ := τ) (main (F := Ideal))) ⟨m, fun _ => 0, ρ⟩ fun r => ∀ c : Dev nD,
      r.2.mem ((c : Thread nD τ).loc main_v6)
        = tokens (tubelets (m ((c : Thread nD τ).loc main_arg0))) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      rw [V_tubelets, V_main_arg1, V_main_arg2, V_main_arg3])), (h c).2⟩)
    (run_blocks m ρ)

end Cert.KernelIdeal.Blocks

end
-- ==== Proof.RefTokens.lean ====
/-
  The reference computes `tokens` of its tubelet array.

  After the rearrangement of the video into tubelets (kept here as the one array it is, `val_main_v5`), the reference
  contracts the 98 pixels of every tubelet against every row of the weights, adds the bias repeated over clips and
  slots, and adds the position embedding repeated over clips. Read at an index `(b, n, e)` each step names one entry of
  each operand, and what comes out is the defining sum of `tokens`.
-/
import proofs.«132146_j87771951661498_1_alg».proof.Proof.Gen.ReferenceIdeal.Read
import proofs.«132146_j87771951661498_1_alg».proof.Proof.Tokens

noncomputable section

open scoped BigOperators

namespace Cert.ReferenceIdeal.RefTokens

open Cert.ReferenceIdeal Cert.ReferenceIdeal.Gen Cert.ReferenceIdeal.Read Idealize.ShloMosaic Idealize.ShloMosaic.ValueIdx
open Cert.Tokens

/-- The reference's result is `tokens` of its tubelets, the weights, the bias and the position embedding. -/
theorem result_eq (x0 : (⟨S64x16x1x84x84, .f32⟩ : BufTy).Contents (Elt Ideal)) (x1 : (⟨S1024x98, .f32⟩ : BufTy).Contents (Elt Ideal))
    (x2 : (⟨S1024, .f32⟩ : BufTy).Contents (Elt Ideal)) (x3 : (⟨S1x1152x1024, .f32⟩ : BufTy).Contents (Elt Ideal)) :
    val_main_v11 (F := Ideal) x0 x1 x2 x3 = tokens (val_main_v5 (F := Ideal) x0) x1 x2 x3 := by
  funext i
  have el : ∀ k : Fin 98, lidx_main_v6 i k = ix3 (i 0) (i 1) k := fun k => funext fun a => by
    match a with
    | ⟨0, _⟩ => rfl
    | ⟨1, _⟩ => rfl
    | ⟨2, _⟩ => rfl
  have er : ∀ k : Fin 98, ridx_main_v6 i k = ix2 (i 2) k := fun k => funext fun a => by
    match a with
    | ⟨0, _⟩ => rfl
    | ⟨1, _⟩ => rfl
  have eb : idx_main_v7 (idx_main_v8 i) = ix1 (i 2) := funext fun a => by
    match a with
    | ⟨0, _⟩ => rfl
  have ep : idx_main_v10 i = ix3 (0 : Fin 1) (i 1) (i 2) := funext fun a => by
    match a with
    | ⟨0, _⟩ => rfl
    | ⟨1, _⟩ => rfl
    | ⟨2, _⟩ => rfl
  rw [val_main_v11_apply, val_main_v9_apply, val_main_v6_apply, val_main_v8_apply, val_main_v7_apply, val_main_v10_apply]
  simp only [el, er, eb, ep, Ideal.addf_def]
  rfl

end Cert.ReferenceIdeal.RefTokens

end
-- ==== Proof.lean ====
/-
  The certificate: the tubelet-embedding kernel against its plain reference, over the extended reals.

  Both programs first rearrange the video into tubelets (the same data movement, `Tokens.tubelets`). The kernel then
  computes the tokens block by block on an 8 × 9 grid — 8 clips × 128 slots per point, each block the tubelets against the
  rows of the weights, plus the bias, plus the slots' position embeddings —; the reference computes them at once by a
  contraction over the 98 pixels and two broadcast additions. Over the extended reals the kernel's narrowing of the
  product's operands changes nothing and its accumulator starts at zero, so entry `(b, n, e)` of both results is

      (∑ k < 98, tub[b, n, k] · w[e, k]) + bias[e] + pos[0, n, e]        (`Tokens.tokens`),

  the same sum with the additions associated the same way: no law of arithmetic is needed, and the precondition is
  not used. The kernel's side is `Blocks.run` (the payload at an index, `Payload.lean`; the blocks tile the result,
  `Blocks.lean`), the reference's side `RefTokens.result_eq`. The three frames are the programs' runs with the result
  dropped; the idealization rewrote no operation, so `preserves` has nothing to say.
-/
import proofs.«132146_j87771951661498_1_alg».proof.Defs
import proofs.«132146_j87771951661498_1_alg».proof.Proof.Gen.Kernel
import proofs.«132146_j87771951661498_1_alg».proof.Proof.Gen.Kernel.Skeleton
import proofs.«132146_j87771951661498_1_alg».proof.Proof.Gen.Kernel.Launch
import proofs.«132146_j87771951661498_1_alg».proof.Proof.Gen.Kernel.Points
import proofs.«132146_j87771951661498_1_alg».proof.Proof.Gen.Kernel.Frame
import proofs.«132146_j87771951661498_1_alg».proof.Proof.Gen.KernelIdeal
import proofs.«132146_j87771951661498_1_alg».proof.Proof.Gen.KernelIdeal.Skeleton
import proofs.«132146_j87771951661498_1_alg».proof.Proof.Gen.KernelIdeal.Launch
import proofs.«132146_j87771951661498_1_alg».proof.Proof.Gen.KernelIdeal.Points
import proofs.«132146_j87771951661498_1_alg».proof.Proof.Gen.KernelIdeal.Frame
import proofs.«132146_j87771951661498_1_alg».proof.Proof.Gen.ReferenceIdeal
import proofs.«132146_j87771951661498_1_alg».proof.Proof.Gen.Pre_finite_inputs
import proofs.«132146_j87771951661498_1_alg».proof.Proof.Gen.KernelIdeal.Value
import proofs.«132146_j87771951661498_1_alg».proof.Proof.Gen.ReferenceIdeal.Run
import proofs.«132146_j87771951661498_1_alg».proof.Proof.Gen.ReferenceIdeal.Read
import proofs.«132146_j87771951661498_1_alg».proof.Proof.Tokens
import proofs.«132146_j87771951661498_1_alg».proof.Proof.Tubelets
import proofs.«132146_j87771951661498_1_alg».proof.Proof.Blocks
import proofs.«132146_j87771951661498_1_alg».proof.Proof.RefTokens
import Idealize.ShloMosaic.Adequacy
import Idealize.ShloMosaic.Init

noncomputable section

namespace Cert.Proof

open Idealize.ShloMosaic Idealize.ShloMosaic.TcCoe Idealize.SL.Sem
open Cert.Tokens

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the video, the weights, the bias and the position embedding, both programs end with
    `tokens` of the video's tubelets and those three arrays in their result. -/
theorem algebraic : Cert.algebraic_KernelIdeal_ReferenceIdeal := by
  intro m ρ m' ρ' _ hagree
  refine ⟨fun c => tokens (tubelets (m ((c : Thread Cert.KernelIdeal.nD Cert.KernelIdeal.τ).loc Cert.KernelIdeal.main_arg0)))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefTokens.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
